-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Pieces.lean ====
/-
  What the kernel body leaves in the one-entry output block, case by case.

  At the first grid point the body first stores zero in the block, then reads the block back and stores the entry it read
  plus the sum of the point's row cosines: the later store covers the block, and what it read back is the zero just stored.
  At every other point it stores the same expression of the entry the point before left there.
-/
import proofs.«103077_j12927851560994_1_alg».proof.Proof.Gen.KernelIdeal.Frame
import Idealize.ShloMosaic.Lib.Pipeline.Value
import Idealize.ShloMosaic.Lib.Tactic

noncomputable section

namespace Cert.KernelIdeal.RunValue

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Away from the first point: the stored expression of the two input blocks and of the entry `xo` the block held. -/
theorem out_B (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (hc : ¬cond0_0 i) (x0 x1 : Vec F S1024x256 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S1024x256) hz,
    View.ld_unit_zero (S := S1x1) hz]

/-- At the first point: the same expression of the zero block the body has just stored. -/
theorem out_A (c : Dev nD) (i : grid0.Coords) (a1 : Memref sig .tc .vmem S1024x256 .f32) (h1 : a1.IsWhole)
    (a2 : Memref sig .tc .vmem S1024x256 .f32) (h2 : a2.IsWhole) (a3 : Memref sig .tc .vmem S1x1 .f32) (h3 : a3.IsWhole)
    (hc : cond0_0 i) (x0 x1 : Vec F S1024x256 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x256) hz]

end Cert.KernelIdeal.RunValue

end
-- ==== Proof.CosSum.lean ====
/-
  The quantity both programs compute, as one function of the two argument arrays over the extended reals.

  Row `i` of `x` against row `i` of `y`: the inner product of the two rows divided by the product of their Euclidean
  norms, each norm bounded below by the same small constant. The result is the sum of these 8192 row cosines, negated and
  divided by 8192.

  Two laws of finite sums in a commutative monoid join the two programs' arrangements of that sum. Rows taken block by
  block (8 blocks of 1024 consecutive rows) are all the rows. And a row of a square array multiplied entry by entry
  by the indicator of the diagonal sums to its diagonal entry: every other term is a product with zero, which is zero
  at every extended real, the infinities included, so no finiteness is needed.
-/
import Idealize.ShloMosaic.Lib.ValueIdx
import Idealize.ShloMosaic.PureOps.Ideal.Laws

noncomputable section

namespace Cert.DiagCos

open Idealize.ShloMosaic Idealize.ShloMosaic.ValueIdx

/-- The lower bound put under each norm. -/
abbrev eps : EReal := Ideal.ofBits .f32 0x322BCC77#32

/-- Row `i` of `x` against row `i` of `y`: their inner product over the product of their bounded norms. -/
def rowCos {n : ℕ} (x y : (⟨2, ![n, 256]⟩ : Shape).Idx → EReal) (i : Fin n) : EReal :=
  Ideal.div (∑ d : Fin 256, x (ix2 i d) * y (ix2 i d))
    (max (Ideal.sqrt (∑ d : Fin 256, x (ix2 i d) * x (ix2 i d))) eps
      * max (Ideal.sqrt (∑ d : Fin 256, y (ix2 i d) * y (ix2 i d))) eps)

/-- The sum of the 8192 row cosines. -/
def total (x y : (⟨2, ![8192, 256]⟩ : Shape).Idx → EReal) : EReal := ∑ i : Fin 8192, rowCos x y i

/-- What both programs do last with the sum: negate it and divide by 8192. -/
def finish (s : FVec Ideal ⟨0, ![]⟩ .f32) : FVec Ideal ⟨0, ![]⟩ .f32 :=
  Host.divf (F := Ideal) (Host.negf (F := Ideal) s) (constant (F := Ideal) ⟨0, ![]⟩ .f32 0x46000000#32)

/-- Row `r` of block `t` is row `1024 t + r`: the 8 blocks of 1024 rows are the 8192 rows. -/
def blockRow : Fin 8 × Fin 1024 ≃ Fin 8192 where
  toFun p := ⟨1024 * p.1.val + p.2.val, by have := p.1.isLt; have := p.2.isLt; omega⟩
  invFun i := (⟨i.val / 1024, by have := i.isLt; omega⟩, ⟨i.val % 1024, by omega⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv i := Fin.ext (by
    show 1024 * (i.val / 1024) + i.val % 1024 = i.val
    omega)

theorem blockRow_val (t : Fin 8) (r : Fin 1024) : (blockRow (t, r)).val = 1024 * t.val + r.val := rfl

/-- A sum over the rows is the sum over the blocks of the sums over each block's rows. -/
theorem sum_blocks {M : Type*} [AddCommMonoid M] (f : Fin 8192 → M) :
    ∑ i : Fin 8192, f i = ∑ t : Fin 8, ∑ r : Fin 1024, f (blockRow (t, r)) := by
  rw [← blockRow.sum_comp f, Fintype.sum_prod_type]

/-- A row multiplied entry by entry by the indicator of index `i` sums to its entry at `i`. -/
theorem sum_mul_indicator {n : ℕ} (g : Fin n → EReal) (i : Fin n) :
    ∑ j : Fin n, g j * (if i = j then (1 : EReal) else 0) = g i := by
  rw [Finset.sum_eq_single i]
  · rw [if_pos rfl, mul_one]
  · intro j _ hj
    rw [if_neg (Ne.symm hj), mul_zero]
  · intro h
    exact absurd (Finset.mem_univ i) h

/-- A sum over the one-axis indices of extent `n` is the sum over `Fin n`. -/
theorem sum_idx1 {M : Type*} [AddCommMonoid M] {n : ℕ} (f : (⟨1, ![n]⟩ : Shape).Idx → M) :
    ∑ j : (⟨1, ![n]⟩ : Shape).Idx, f j = ∑ i : Fin n, f (ix1 i) := by
  refine (Fintype.sum_equiv (⟨fun j => j 0, ix1, fun j => (eq_ix1 j).symm, fun _ => rfl⟩ :
    (⟨1, ![n]⟩ : Shape).Idx ≃ Fin n) _ _ fun j => ?_)
  exact congrArg f (eq_ix1 j)

end Cert.DiagCos

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.BlockSum.lean ====
/-
  The kernel body's arithmetic, read at the extended reals.

  At one grid point the body holds a block of 1024 rows of each argument. For each row it sums the 256 products of the
  two rows' entries, and of each row's entries with themselves, keeps the three sums as a column, takes the square roots
  of the two sums of squares, bounds each from below, multiplies the two bounded norms and divides the inner product by the
  product: a column holding the 1024 row cosines of the block. It then sums that column to one number and adds it to the
  one entry it carries from the point before.

  So what the body stores is the carried entry plus the sum of the block's row cosines.
-/
import proofs.«103077_j12927851560994_1_alg».proof.Proof.Gen.KernelIdeal.Skeleton
import proofs.«103077_j12927851560994_1_alg».proof.Proof.CosSum
import proofs.«103077_j12927851560994_1_alg».proof.Proof.LibKeepdims
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Cert.DiagCos Idealize.ShloMosaic Idealize.ShloMosaic.ValueIdx

/-- The sums along the rows of a block, kept as a column: at row `r` the sum of the row's 256 entries. -/
theorem rowSumColumn_apply (a : FVec Ideal S1024x256 .f32) (r : Fin 1024) (u : Fin 1) :
    shapeCast S1024x1 (multiReduction (F := Ideal) .add [1] S1024 a 0x00000000#32 reduces_S1024x256_S1024 (.inl rfl) rfl)
      shapeCasts_S1024_S1024x1 (ix2 r u) = ∑ d : Fin 256, a (ix2 r d) :=
  (Cert.Keepdims.shapeCast_a_a1_apply _ shapeCasts_S1024_S1024x1 r u).trans
    (Cert.Keepdims.rowSum_apply a reduces_S1024x256_S1024 (.inl rfl) rfl r)

/-- The column of the block's row cosines, as the body computes it. -/
def cosColumn (x0 x1 : FVec Ideal S1024x256 .f32) : FVec Ideal S1024x1 .f32 :=
  divf
    (shapeCast S1024x1 (multiReduction (F := Ideal) .add [1] S1024 (mulf x0 x1) 0x00000000#32 reduces_S1024x256_S1024 (.inl rfl) rfl) shapeCasts_S1024_S1024x1)
    (mulf
      (maximumf (sqrt (shapeCast S1024x1 (multiReduction (F := Ideal) .add [1] S1024 (mulf x0 x0) 0x00000000#32 reduces_S1024x256_S1024 (.inl rfl) rfl) shapeCasts_S1024_S1024x1))
        (broadcast S1024x1 (Scalar.ofBits (F := Ideal) .f32 0x322BCC77#32)))
      (maximumf (sqrt (shapeCast S1024x1 (multiReduction (F := Ideal) .add [1] S1024 (mulf x1 x1) 0x00000000#32 reduces_S1024x256_S1024 (.inl rfl) rfl) shapeCasts_S1024_S1024x1))
        (broadcast S1024x1 (Scalar.ofBits (F := Ideal) .f32 0x322BCC77#32))))

/-- At row `r` the column holds the cosine of row `r` of the two blocks. -/
theorem cosColumn_apply (x0 x1 : FVec Ideal S1024x256 .f32) (r : Fin 1024) (u : Fin 1) :
    cosColumn x0 x1 (ix2 r u) = rowCos x0 x1 r := by
  show Ideal.div
      (shapeCast S1024x1 (multiReduction (F := Ideal) .add [1] S1024 (mulf x0 x1) 0x00000000#32 reduces_S1024x256_S1024 (.inl rfl) rfl) shapeCasts_S1024_S1024x1 (ix2 r u))
      (max (Ideal.sqrt (shapeCast S1024x1 (multiReduction (F := Ideal) .add [1] S1024 (mulf x0 x0) 0x00000000#32 reduces_S1024x256_S1024 (.inl rfl) rfl) shapeCasts_S1024_S1024x1 (ix2 r u))) eps
        * max (Ideal.sqrt (shapeCast S1024x1 (multiReduction (F := Ideal) .add [1] S1024 (mulf x1 x1) 0x00000000#32 reduces_S1024x256_S1024 (.inl rfl) rfl) shapeCasts_S1024_S1024x1 (ix2 r u))) eps)
    = _
  rw [rowSumColumn_apply, rowSumColumn_apply, rowSumColumn_apply]
  rfl

/-- The column summed to one number: the sum of the block's row cosines. -/
theorem cosColumn_total (x0 x1 : FVec Ideal S1024x256 .f32) (k : S1.Idx) :
    multiReduction (F := Ideal) .add [1, 2] S1 (shapeCast S1x1024x1 (cosColumn x0 x1) shapeCasts_S1024x1_S1x1024x1) 0x00000000#32
      reduces_S1x1024x1_S1 (.inl rfl) rfl k = ∑ r : Fin 1024, rowCos x0 x1 r := by
  refine (Ideal.multiReduction_add_total _ 0x00000000#32 reduces_S1x1024x1_S1 (fun b => by
    match b with
    | ⟨0, _⟩ => rfl) (.inl rfl) rfl k).trans ?_
  show ∑ i : S1x1024x1.Idx, cosColumn x0 x1 (Shape.reshapeEquiv shapeCasts_S1024x1_S1x1024x1 i) = _
  rw [Equiv.sum_comp (Shape.reshapeEquiv shapeCasts_S1024x1_S1x1024x1) (cosColumn x0 x1), sum_idx2]
  refine Finset.sum_congr rfl fun r _ => ?_
  rw [Fin.sum_univ_one, cosColumn_apply]

/-- What the body stores: the entry it carries plus the sum of the block's row cosines. -/
theorem pay2_apply (x0 x1 : Vec Ideal S1024x256 .f32) (xo : Vec Ideal S1x1 .f32) (j : S1x1.Idx) :
    k0_pay2 (F := Ideal) x0 x1 xo j = xo j + ∑ r : Fin 1024, rowCos x0 x1 r := by
  show shapeCast S1x1 xo shapeCasts_S1x1_S1x1 j
      + shapeCast S1x1x1 (multiReduction (F := Ideal) .add [1, 2] S1 (shapeCast S1x1024x1 (cosColumn x0 x1) shapeCasts_S1024x1_S1x1024x1) 0x00000000#32
          reduces_S1x1024x1_S1 (.inl rfl) rfl) shapeCasts_S1_S1x1x1 (fun a => ⟨(![0, 0, 0] : Fin 3 → Nat) a, inpos_S1x1x1_p0_0_0 a⟩) = _
  rw [shapeCast_self]
  exact congrArg (xo j + ·) (cosColumn_total x0 x1 _)

/-- What the reset stores: zero. -/
theorem pay1_apply (j : S1x1.Idx) : k0_pay1 (F := Ideal) j = 0 :=
  Ideal.ofBits_zero_f32

end Cert.KernelIdeal.BlockValue

end
-- ==== Proof.KernelRun.lean ====
/-
  The kernel's run, read at the extended reals: its result is the sum of the 8192 row cosines, negated and divided by 8192.

  The one-entry output block is carried from grid point to grid point. After point 0 it holds zero plus the sum of the row
  cosines of block 0, and each later point adds the sum of its own block's row cosines: after point n it holds the sum over
  the blocks 0 … n (induction on the point). Block t of an argument holds the argument's rows 1024 t … 1024 t + 1023, so
  after the last point the entry is the sum over all 8192 rows. The block is written back once, after the last point, and it
  is the whole one-entry result array. The lines after the kernel read that entry, negate it and divide by 8192.
-/
import proofs.«103077_j12927851560994_1_alg».proof.Proof.Pieces
import proofs.«103077_j12927851560994_1_alg».proof.Proof.BlockSum
import Idealize.ShloMosaic.Lib.Pipeline.Value
import Idealize.ShloMosaic.Lib.StableHlo.Run
import Idealize.ShloMosaic.Lib.Tactic

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.BlockValue Cert.DiagCos

variable (m : (ℓ : Loc nD τ sig) → Buf (Elt Ideal) ℓ) (ρ : Dev nD → PrngReg)

/-- The two argument arrays. -/
abbrev arg0 (c : Dev nD) : Vec Ideal S8192x256 .f32 := m ((c : Thread nD τ).loc main_arg0)
abbrev arg1 (c : Dev nD) : Vec Ideal S8192x256 .f32 := m ((c : Thread nD τ).loc main_arg1)

/-- Their blocks at grid point `t`. -/
abbrev blk0 (c : Dev nD) (t : Fin cfg0.N) : Vec Ideal S1024x256 .f32 := iblk m c 0 t
abbrev blk1 (c : Dev nD) (t : Fin cfg0.N) : Vec Ideal S1024x256 .f32 := iblk m c 1 t

/-- The sum of the row cosines of the blocks at point `t`. -/
def part (c : Dev nD) (t : Fin cfg0.N) : EReal := ∑ r : Fin 1024, rowCos (blk0 m c t) (blk1 m c t) r

/-- The running sum after point `n`. -/
def acc (c : Dev nD) : (n : ℕ) → n < cfg0.N → EReal
  | 0, h => 0 + part m c ⟨0, h⟩
  | n + 1, h => acc c n (Nat.lt_of_succ_lt h) + part m c ⟨n + 1, h⟩

/-- After point `n` the output block's entry is the running sum. -/
theorem outsAt_eq (c : Dev nD) : ∀ (n : ℕ) (h : n < cfg0.N) (j : S1x1.Idx), outsAt0 m c n h j = acc m c n h
  | 0, h, j => by
    refine (congrFun (outsAt0_A m c ⟨0, h⟩ rfl) j).trans ?_
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (iblk m c 0 ⟨0, h⟩) (iblk m c 1 ⟨0, h⟩)) j).trans ?_
    refine (pay2_apply (blk0 m c ⟨0, h⟩) (blk1 m c ⟨0, h⟩) (k0_pay1 (F := Ideal)) j).trans ?_
    rw [pay1_apply]
    rfl
  | n + 1, h, j => by
    have hN : cfg0.N = 8 := N_0
    have hB : ¬(⟨n + 1, h⟩ : Fin cfg0.N).val % 8 = 0 := by
      dsimp only
      omega
    refine (congrFun (outsAt0_B m c ⟨n + 1, h⟩ hB) j).trans ?_
    refine (congrFun (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh))
      (iblk m c 0 ⟨n + 1, h⟩) (iblk m c 1 ⟨n + 1, h⟩)
      (outsAt0 m c ((⟨n + 1, h⟩ : Fin cfg0.N).val - 1) (Nat.lt_of_le_of_lt (Nat.sub_le _ _) (⟨n + 1, h⟩ : Fin cfg0.N).isLt))) j).trans ?_
    refine (pay2_apply (blk0 m c ⟨n + 1, h⟩) (blk1 m c ⟨n + 1, h⟩) _ j).trans ?_
    show outsAt0 m c n _ j + part m c ⟨n + 1, h⟩ = acc m c n _ + part m c ⟨n + 1, h⟩
    rw [outsAt_eq c n _ j]

/-- Where the two input windows' blocks sit: block `t` starts at row `1024 t`, column 0. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- Row `r` of block `t` of the first argument is its row `1024 t + r`. -/
theorem blk0_apply (c : Dev nD) (t : Fin cfg0.N) (r : Fin 1024) (d : Fin 256) (i : Fin 8192) (hi : i.val = 1024 * t.val + r.val) :
    blk0 m c t (ix2 r d) = arg0 m c (ix2 i d) := by
  have hx := index0 t
  unfold blk0 iblk
  rw [View.read_apply]
  show V m c main_arg0 _ = m ((c : Thread nD τ).loc main_arg0) _
  unfold V
  congr 1
  funext a
  apply Fin.ext
  match a with
  | ⟨0, _⟩ =>
    show win0_0.index t 0 * 1024 + 1 * r.val = i.val
    rw [hx.1, hi]
    omega
  | ⟨1, _⟩ =>
    show win0_0.index t 1 * 256 + 1 * d.val = d.val
    rw [hx.2]
    omega

/-- Row `r` of block `t` of the second argument is its row `1024 t + r`. -/
theorem blk1_apply (c : Dev nD) (t : Fin cfg0.N) (r : Fin 1024) (d : Fin 256) (i : Fin 8192) (hi : i.val = 1024 * t.val + r.val) :
    blk1 m c t (ix2 r d) = arg1 m c (ix2 i d) := by
  have hx := index1 t
  unfold blk1 iblk
  rw [View.read_apply]
  show V m c main_arg1 _ = m ((c : Thread nD τ).loc main_arg1) _
  unfold V
  congr 1
  funext a
  apply Fin.ext
  match a with
  | ⟨0, _⟩ =>
    show win0_1.index t 0 * 1024 + 1 * r.val = i.val
    rw [hx.1, hi]
    omega
  | ⟨1, _⟩ =>
    show win0_1.index t 1 * 256 + 1 * d.val = d.val
    rw [hx.2]
    omega

/-- So the cosine of row `r` of the blocks at point `t` is the cosine of row `1024 t + r` of the arguments. -/
theorem rowCos_blk (c : Dev nD) (t : Fin cfg0.N) (r : Fin 1024) (i : Fin 8192) (hi : i.val = 1024 * t.val + r.val) :
    rowCos (blk0 m c t) (blk1 m c t) r = rowCos (arg0 m c) (arg1 m c) i := by
  unfold rowCos
  simp only [blk0_apply m c t r _ i hi, blk1_apply m c t r _ i hi]

/-- The block sums by number, zero past the grid. -/
def partN (c : Dev nD) (k : ℕ) : EReal := if hk : k < cfg0.N then part m c ⟨k, hk⟩ else 0

/-- The running sum after point `n` is the sum of the block sums 0 … n. -/
theorem acc_eq (c : Dev nD) : ∀ (n : ℕ) (h : n < cfg0.N), acc m c n h = ∑ k ∈ Finset.range (n + 1), partN m c k
  | 0, h => by
    rw [Finset.sum_range_one]
    show 0 + part m c ⟨0, h⟩ = partN m c 0
    rw [zero_add, partN, dif_pos h]
  | n + 1, h => by
    rw [Finset.sum_range_succ, ← acc_eq c n (Nat.lt_of_succ_lt h)]
    show acc m c n _ + part m c ⟨n + 1, h⟩ = acc m c n _ + partN m c (n + 1)
    rw [partN, dif_pos h]

/-- After the last point the running sum is the sum of all the row cosines. -/
theorem acc_last (c : Dev nD) (h : 7 < cfg0.N) : acc m c 7 h = total (arg0 m c) (arg1 m c) := by
  have hN : cfg0.N = 8 := N_0
  rw [acc_eq, total, sum_blocks, ← Fin.sum_univ_eq_sum_range (fun k => partN m c k) 8]
  refine Finset.sum_congr rfl fun t _ => ?_
  have ht : t.val < cfg0.N := by
    have := t.isLt
    omega
  rw [partN, dif_pos ht, part]
  exact Finset.sum_congr rfl fun r _ => rowCos_blk m c ⟨t.val, ht⟩ r (blockRow (t, r)) (blockRow_val t r)

/-- The result array's one entry: the sum of the row cosines. -/
abbrev result (c : Dev nD) : Buf (Elt Ideal) ((c : Thread nD τ).loc main_v0) := fun _ => total (arg0 m c) (arg1 m c)

/-- After the last point the output block holds it. -/
theorem outsAt_last (c : Dev nD) : outsAt0 m c t0_7.val t0_7.isLt = result m c :=
  funext fun j => (outsAt_eq m c 7 t0_7.isLt j).trans (acc_last m c t0_7.isLt)

/-- The one write-back, after point 7, writes it: the block is the whole one-entry array. -/
theorem flushed_eq (c : Dev nD) (t : Fin cfg0.N) (hf : (cfg0.win 2).flush t = true) :
    (dats m 0 c).flushed 2 t = ((cfg0.win 2).blk t).view.read (Elt Ideal) (result m c) := by
  have hN : cfg0.N = 8 := N_0
  have h7 : t.val = 7 := by
    have := (flush0_2 t).mp hf
    have := t.isLt
    omega
  obtain rfl : t = t0_7 := Fin.ext h7
  show (cfg0.win 2).cut (grid0.coords t0_7) ((dats m 0 c).after 2 t0_7) = _
  rw [after0_2, outsAt_last]
  have hz' : (fun a => win0_2.index t0_7 a * main_v0.ty.shape.size a) = fun _ => 0 := funext fun a => by
    fin_cases a <;> decide
  exact (Memref.read_access_unit_zero (Elt Ideal) main_v0 hz' (fun a => by rw [congrFun hz' a]; simp) (result m c)).symm

/-- So the result array ends holding the sum of the row cosines. -/
theorem final_o (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 0 from by decide +kernel, show win0_2.xsize (grid0.coords t0_7) 0 = 1 from by decide +kernel]
        omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 1 from by decide +kernel]
        omega⟩

/-- The lines after the kernel: the entry read as a scalar, negated, divided by 8192. -/
theorem tail_eq (c : Dev nD) :
    Pipeline.afterTail₀ cfgs (dats m) 0 (V0 m) [hostOps1] c main_v3 = finish (fun _ => total (arg0 m c) (arg1 m c)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v0)
      = result m c :=
    (Pipeline.withArrays_arr spec0 launch0.win.arr_inj c _ _ 2).trans (final_o m c)
  rw [hw]
  rfl

/-- The kernel's run: the result at the sum of the row cosines negated and divided by 8192, the arguments unchanged. -/
theorem run : θ_run defs (onTc (τ := τ) (main (F := Ideal))) ⟨m, fun _ => 0, ρ⟩ fun r => ∀ c : Dev nD,
      r.2.mem ((c.tc : Thread nD τ).loc main_v3) = finish (fun _ => total (arg0 m c) (arg1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefTotal.lean ====
/-
  The reference, read at the extended reals.

  It forms the bounded norm of every row of each argument, the 8192 × 8192 array of inner products of every row of the first
  with every row of the second, divides entry (i, j) by the product of the bounded norms of row i and of row j, multiplies
  entry by entry by the indicator of the diagonal, sums each row, and sums the row sums.

  Row i of the masked array has one entry that can differ from zero, the diagonal one, and that entry is the cosine of row i
  of the first argument against row i of the second. So the sum of the row sums is the sum of the 8192 row cosines.
-/
import proofs.«103077_j12927851560994_1_alg».proof.Proof.Gen.ReferenceIdeal.Read
import proofs.«103077_j12927851560994_1_alg».proof.Proof.CosSum
import Idealize.ShloMosaic.Lib.StableHlo.Predicate

noncomputable section

namespace Cert.ReferenceIdeal.RefValue

open Cert.ReferenceIdeal Cert.ReferenceIdeal.Read Cert.DiagCos Idealize.ShloMosaic Idealize.ShloMosaic.ValueIdx

variable (x0 x1 : (⟨S8192x256, .f32⟩ : BufTy).Contents (Elt Ideal))

/-- The first argument's bounded norm at row `i`. -/
theorem norm0_apply (i : Fin 8192) :
    val_main_v2 (F := Ideal) x0 (ix1 i) = max (Ideal.sqrt (∑ d : Fin 256, x0 (ix2 i d) * x0 (ix2 i d))) eps := by
  have e : ∀ k : Fin 256, idx_main_call0_v1 (ix1 i) k = ix2 i k := fun k => funext fun a => by
    match a with
    | ⟨0, _⟩ => rfl
    | ⟨1, _⟩ => rfl
  rw [val_main_v2_apply, val_main_v0_apply, val_main_call0_v1_apply, val_main_v1_apply, val_main_cst_apply,
    val_main_call0_cst_apply]
  simp only [val_main_call0_v0_apply, e, Ideal.maximumf_def, Ideal.hostUnary_sqrt_def, Ideal.ofBits_def, Ideal.mulf_def,
    Ideal.ofBits_zero_f32, zero_add]

/-- The second argument's bounded norm at row `j`. -/
theorem norm1_apply (j : Fin 8192) :
    val_main_v5 (F := Ideal) x1 (ix1 j) = max (Ideal.sqrt (∑ d : Fin 256, x1 (ix2 j d) * x1 (ix2 j d))) eps := by
  have e : ∀ k : Fin 256, idx_main_call1_v1 (ix1 j) k = ix2 j k := fun k => funext fun a => by
    match a with
    | ⟨0, _⟩ => rfl
    | ⟨1, _⟩ => rfl
  rw [val_main_v5_apply, val_main_v3_apply, val_main_call1_v1_apply, val_main_v4_apply, val_main_cst_0_apply,
    val_main_call1_cst_apply]
  simp only [val_main_call1_v0_apply, e, Ideal.maximumf_def, Ideal.hostUnary_sqrt_def, Ideal.ofBits_def, Ideal.mulf_def,
    Ideal.ofBits_zero_f32, zero_add]

/-- Entry (i, j) of the similarity array: the inner product of row i of the first argument with row j of the second, over
    the product of their bounded norms. -/
theorem sim_apply (i j : Fin 8192) :
    val_main_v12 (F := Ideal) x0 x1 (ix2 i j)
      = Ideal.div (∑ d : Fin 256, x0 (ix2 i d) * x1 (ix2 j d))
          (max (Ideal.sqrt (∑ d : Fin 256, x0 (ix2 i d) * x0 (ix2 i d))) eps
            * max (Ideal.sqrt (∑ d : Fin 256, x1 (ix2 j d) * x1 (ix2 j d))) eps) := by
  have e7 : idx_main_v7 (idx_main_v9 (ix2 i j)) = ix1 i := funext fun a => by
    match a with
    | ⟨0, _⟩ => rfl
  have e8 : idx_main_v8 (idx_main_v10 (ix2 i j)) = ix1 j := funext fun a => by
    match a with
    | ⟨0, _⟩ => rfl
  have el : ∀ k : Fin 256, lidx_main_v6 (ix2 i j) k = ix2 i k := fun k => funext fun a => by
    match a with
    | ⟨0, _⟩ => rfl
    | ⟨1, _⟩ => rfl
  have er : ∀ k : Fin 256, ridx_main_v6 (ix2 i j) k = ix2 j k := fun k => funext fun a => by
    match a with
    | ⟨0, _⟩ => rfl
    | ⟨1, _⟩ => rfl
  rw [val_main_v12_apply, val_main_v6_apply, val_main_v11_apply, val_main_v9_apply, val_main_v10_apply, val_main_v7_apply,
    val_main_v8_apply, e7, e8, norm0_apply, norm1_apply]
  simp only [el, er, Ideal.hostDivf_def, Ideal.mulf_def]

/-- The mask is the indicator of the diagonal: the row number and the column number, both below 2³², are equal as 32-bit
    words exactly when they are equal. -/
theorem mask_apply (i j : Fin 8192) : val_main_v18 (F := Ideal) (ix2 i j) = if i = j then (1 : EReal) else 0 := by
  show (((IntOp.cmpi .eq (IntOp.addi (BitVec.ofNat 32 i.val) 0#32) (BitVec.ofNat 32 j.val)).toNat : ℝ) : EReal) = _
  have hadd : IntOp.addi (BitVec.ofNat 32 i.val) 0#32 = BitVec.ofNat 32 i.val := by
    unfold IntOp.addi
    exact BitVec.add_zero _
  rw [hadd]
  by_cases h : i = j
  · subst h
    rw [if_pos rfl, (StableHlo.Predicate.cmpi_eq_iff).mpr rfl]
    simp
  · have hne : ¬IntOp.cmpi .eq (BitVec.ofNat 32 i.val) (BitVec.ofNat 32 j.val) = 1#1 := fun hc => h (Fin.ext (by
      have hw := congrArg BitVec.toNat ((StableHlo.Predicate.cmpi_eq_iff).mp hc)
      have hi : i.val < 2 ^ 32 := lt_trans i.isLt (by norm_num)
      have hj : j.val < 2 ^ 32 := lt_trans j.isLt (by norm_num)
      rwa [BitVec.toNat_ofNat, BitVec.toNat_ofNat, Nat.mod_eq_of_lt hi, Nat.mod_eq_of_lt hj] at hw))
    rw [if_neg h, eq_zero_of_ne_one hne]
    simp

/-- Row i of the masked array sums to the cosine of row i of the first argument against row i of the second. -/
theorem row_apply (i : Fin 8192) : val_main_v20 (F := Ideal) x0 x1 (ix1 i) = rowCos x0 x1 i := by
  have e : ∀ k : Fin 8192, idx_main_v20 (ix1 i) k = ix2 i k := fun k => funext fun a => by
    match a with
    | ⟨0, _⟩ => rfl
    | ⟨1, _⟩ => rfl
  rw [val_main_v20_apply, val_main_cst_1_apply]
  simp only [e, val_main_v19_apply, mask_apply, Ideal.mulf_def, Ideal.ofBits_def, Ideal.ofBits_zero_f32, zero_add]
  rw [sum_mul_indicator (fun j => val_main_v12 (F := Ideal) x0 x1 (ix2 i j)) i, sim_apply]
  rfl

/-- The sum of the row sums is the sum of the row cosines. -/
theorem total_apply (k : S_.Idx) : val_main_v21 (F := Ideal) x0 x1 k = total x0 x1 := by
  rw [val_main_v21_apply, val_main_cst_2_apply, sum_idx1]
  simp only [row_apply, Ideal.ofBits_def, Ideal.ofBits_zero_f32, zero_add]
  rfl

/-- The reference's result: the sum of the row cosines, negated and divided by 8192. -/
theorem result_eq : val_main_v23 (F := Ideal) x0 x1 = finish (fun _ => total x0 x1) := by
  show finish (val_main_v21 (F := Ideal) x0 x1) = _
  exact congrArg finish (funext fun k => total_apply x0 x1 k)

end Cert.ReferenceIdeal.RefValue

end
-- ==== Proof.lean ====
/-
  The kernel computes the mean, negated, of the cosines of corresponding rows of two 8192 × 256 arrays. It walks the rows in 8
  blocks of 1024, forms each row's cosine from the row's own three sums of products, and accumulates the blocks' sums in a
  one-entry block. The reference forms the whole 8192 × 8192 array of cosines of every row of the first array against every
  row of the second, keeps its diagonal by multiplying with the identity pattern, and sums everything.

  Over the extended reals the two agree for every input. A product with the pattern's zero is zero whatever the other factor,
  so each row of the masked array sums to its diagonal entry, which is the cosine of the two corresponding rows; and sums
  in a commutative monoid may be regrouped block by block. Both programs then negate the sum and divide by the same 8192.
  Neither step uses that the inputs are finite.

  The frames: the kernel's two are generated whole; the reference's is its run with the result dropped. The idealization
  rewrote nothing, so there is nothing to preserve.
-/
import proofs.«103077_j12927851560994_1_alg».proof.Defs
import proofs.«103077_j12927851560994_1_alg».proof.Proof.Gen.Kernel
import proofs.«103077_j12927851560994_1_alg».proof.Proof.Gen.Kernel.Skeleton
import proofs.«103077_j12927851560994_1_alg».proof.Proof.Gen.Kernel.Launch
import proofs.«103077_j12927851560994_1_alg».proof.Proof.Gen.Kernel.Points
import proofs.«103077_j12927851560994_1_alg».proof.Proof.Gen.Kernel.Frame
import proofs.«103077_j12927851560994_1_alg».proof.Proof.Gen.KernelIdeal
import proofs.«103077_j12927851560994_1_alg».proof.Proof.Gen.KernelIdeal.Skeleton
import proofs.«103077_j12927851560994_1_alg».proof.Proof.Gen.KernelIdeal.Launch
import proofs.«103077_j12927851560994_1_alg».proof.Proof.Gen.KernelIdeal.Points
import proofs.«103077_j12927851560994_1_alg».proof.Proof.Gen.KernelIdeal.Frame
import proofs.«103077_j12927851560994_1_alg».proof.Proof.Gen.ReferenceIdeal
import proofs.«103077_j12927851560994_1_alg».proof.Proof.Gen.Pre_finite_inputs
import proofs.«103077_j12927851560994_1_alg».proof.Proof.Gen.ReferenceIdeal.Run
import proofs.«103077_j12927851560994_1_alg».proof.Proof.Gen.ReferenceIdeal.Read
import proofs.«103077_j12927851560994_1_alg».proof.Proof.KernelRun
import proofs.«103077_j12927851560994_1_alg».proof.Proof.RefTotal
import Idealize.ShloMosaic.Adequacy
import Idealize.ShloMosaic.Init

noncomputable section

namespace Cert.Proof

open Idealize.ShloMosaic Idealize.SL.Sem Cert.DiagCos

/-- The word-level kernel terminates without a fault and leaves its arguments as they were. -/
theorem frame_kernel : Cert.frame_Kernel :=
  fun m ρ _ => Cert.Kernel.Gen.frame m ρ

/-- So does the kernel read at the extended reals. -/
theorem frame_kernelIdeal : Cert.frame_KernelIdeal :=
  fun m ρ _ => Cert.KernelIdeal.Gen.frame m ρ

/-- And the reference: its run, the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- Both programs end at the sum of the row cosines, negated and divided by 8192, of arguments that agree. -/
theorem algebraic : Cert.algebraic_KernelIdeal_ReferenceIdeal := by
  intro m ρ m' ρ' _ hagree
  refine ⟨fun c => finish (fun _ => total (Cert.KernelIdeal.RunValue.arg0 m c) (Cert.KernelIdeal.RunValue.arg1 m c)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
